-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S500x128 : Shape := ⟨2, ![500, 128]⟩
abbrev S128x128 : Shape := ⟨2, ![128, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : FVec F S50000x1 .f32) (main_arg2 : FVec F S500x128 .f32) (main_arg3 : FVec F S128x128 .f32) (main_arg4 : FVec F S128x128 .f32) (main_arg5 : FVec F S128x128 .f32) (main_arg6 : IVec S600000 32) (main_arg7 : IVec S600000 32) (main_arg8 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S50000x1 : Shape := ⟨2, ![50000, 1]⟩
abbrev S500x128 : Shape := ⟨2, ![500, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S8000x128 : Shape := ⟨2, ![8000, 128]⟩
abbrev S50000 : Shape := ⟨1, ![50000]⟩
abbrev S2000x128 : Shape := ⟨2, ![2000, 128]⟩
abbrev S2000x1 : Shape := ⟨2, ![2000, 1]⟩

abbrev nBuf : Space → Nat
  | .hbm => 47
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S500x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S128x128, .bf16⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S50000, .f32⟩
  | .hbm, ⟨37, _⟩ => ⟨S600000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .i1⟩
  | .hbm, ⟨42, _⟩ => ⟨S50000, .f32⟩
  | .hbm, ⟨43, _⟩ => ⟨S50000x1, .f32⟩
  | .hbm, ⟨44, _⟩ => ⟨S128x128, .bf16⟩
  | .hbm, ⟨45, _⟩ => ⟨S128x128, .bf16⟩
  | .hbm, ⟨46, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .bf16⟩
  | .local _ .vmem, ⟨5, _⟩ => ⟨S8000x128, .f32⟩
  | .local _ .vmem, ⟨6, _⟩ => ⟨S8000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S128x128, .bf16⟩
  | .local _ .vmem, ⟨16, _⟩ => ⟨S128x128, .bf16⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  gather_S50000x128_S600000x1_S600000x128_1_0_n_n_0_1_1128_wf : GatherDims.WF S50000x128 S600000x1 S600000x128 [1] [0] [] [0] [] 1 ![1, 128]
  gather_S500x128_S600000x1_S600000x128_1_0_n_n_0_1_1128_wf : GatherDims.WF S500x128 S600000x1 S600000x128 [1] [0] [] [0] [] 1 ![1, 128]
  dot_S8000x128_S128x128_S8000x128_1_0_0_1_n_n_wf : DotDims.WF S8000x128 S128x128 S8000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .f32 = 32 ∨ (Rect.block (s := S600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .f32 = 32 ∨ (Rect.block (s := S600000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S600000x128.size a
  hwx0_3 : ∀ i : grid0.Coords, EltTy.bits .f32 = 32 ∨ (Rect.block (s := S600000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S500x128_S600000x1_S600000x128_1_0_n_n_0_1_1128 : GatherDims S500x128 S600000x1 S600000x128 where
  offsetDims := [1]
  collapsedSliceDims := [0]
  operandBatchingDims := []
  startIndicesBatchingDims := []
  startIndexMap := [0]
  indexVectorDim := 1
  sliceSizes := ![1, 128]
  wf := gather_S500x128_S600000x1_S600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S500x128 : Shape := ⟨2, ![500, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S500x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S600000, .f32⟩
  | .hbm, ⟨37, _⟩ => ⟨S_, .f32⟩
  | .hbm, ⟨38, _⟩ => ⟨S50000, .f32⟩
  | .hbm, ⟨39, _⟩ => ⟨S600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S50000x1, .i1⟩
  | .hbm, ⟨45, _⟩ => ⟨S50000x128, .f32⟩
  | .hbm, ⟨46, _⟩ => ⟨S50000x128, .f32⟩
  | .hbm, ⟨47, _⟩ => ⟨S50000x128, .i1⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  gather_S50000x128_S600000x1_S600000x128_1_0_n_n_0_1_1128_wf : GatherDims.WF S50000x128 S600000x1 S600000x128 [1] [0] [] [0] [] 1 ![1, 128]
  gather_S500x128_S600000x1_S600000x128_1_0_n_n_0_1_1128_wf : GatherDims.WF S500x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S500x128_S600000x1_S600000x128_1_0_n_n_0_1_1128 : GatherDims S500x128 S600000x1 S600000x128 where
  offsetDims := [1]
  collapsedSliceDims := [0]
  operandBatchingDims := []
  startIndicesBatchingDims := []
  startIndexMap := [0]
  indexVectorDim := 1
  sliceSizes := ![1, 128]
  wf := gather_S500x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Payloads.lean ====
import proofs.«129216_j47777216201145_1_alg».proof.Proof.Gen.KernelIdeal.Skeleton
import Idealize.ShloMosaic.Lib.Pipeline.Value
import Idealize.ShloMosaic.Lib.ValueIdx
import Idealize.ShloMosaic.PureOps.Ideal.Laws

/-!
What each kernel body stores, read at one index of its block, on the extended reals.

* The message body stores, at row `r` and column `q` of an edge block, `∑ k, (x r k + e r k) · w k q`: the two loaded
  blocks added, then multiplied with the weight matrix into a zero accumulator; the change of float format in between
  is the identity on the extended reals.
* The self-loop body stores `max (agg r q · nrm r + (b r · L r q + (1 − b r) · E r q)) 0`, with `L = h · lw` and
  `E = h · elw` the two matrix products and `b`, `nrm` column vectors broadcast along the row.
-/

noncomputable section

namespace Cert.KernelIdeal.Pay

open Cert.KernelIdeal Cert.KernelIdeal.Gen Idealize.ShloMosaic Idealize.ShloMosaic.TcCoe Idealize.SL.Sem

/-! ## The message body at an index -/

/-- Row `j 0` of an edge block, at column `k`. -/
abbrev erow (j : S8000x128.Idx) (k : Fin 128) : S8000x128.Idx := fun a => match a with
  | ⟨0, _⟩ => ⟨(j 0).val, (j 0).isLt⟩
  | ⟨1, _⟩ => ⟨k.val, k.isLt⟩
/-- Row `k` of a weight matrix, at column `j 1`. -/
abbrev ecol (j : S8000x128.Idx) (k : Fin 128) : S128x128.Idx := fun a => match a with
  | ⟨0, _⟩ => ⟨k.val, k.isLt⟩
  | ⟨1, _⟩ => ⟨(j 1).val, (j 1).isLt⟩

theorem lhs_msg_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_msg_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_msg_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_msg_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- An edge block times a weight matrix into a zero accumulator, read at an index: the row's sum of products. -/
theorem matmul_msg_apply (l : FVec Ideal S8000x128 .bf16) (r : FVec Ideal S128x128 .bf16) (j : S8000x128.Idx) :
    matmul dot_S8000x128_S128x128_S8000x128_1_0_0_1_n_n none l r (constant S8000x128 .f32 0x00000000#32) j = ∑ k : Fin 128, l (erow j k) * r (ecol j k) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx j ((ValueIdx.contrEquiv1 dot_S8000x128_S128x128_S8000x128_1_0_0_1_n_n 128 rfl rfl).symm k) = erow j k := funext fun a => Fin.ext (by
    match a with
    | ⟨0, _⟩ => exact lhs_msg_0 _ _
    | ⟨1, _⟩ => exact (lhs_msg_1 _ _).trans hk)
  have er : dot_S8000x128_S128x128_S8000x128_1_0_0_1_n_n.rhsIdx j ((ValueIdx.contrEquiv1 dot_S8000x128_S128x128_S8000x128_1_0_0_1_n_n 128 rfl rfl).symm k) = ecol j k := funext fun a => Fin.ext (by
    match a with
    | ⟨0, _⟩ => exact (rhs_msg_0 _ _).trans hk
    | ⟨1, _⟩ => exact rhs_msg_1 _ _)
  rw [el, er]

/-- The message body's stored value at an index: the row of the two loaded blocks' sum times the weight's column. -/
theorem msg_pay_apply (x0 x1 : Vec Ideal S8000x128 .f32) (w : Vec Ideal S128x128 .bf16) (j : S8000x128.Idx) :
    k0_pay1 x0 x1 w j = ∑ k : Fin 128, (x0 (erow j k) + x1 (erow j k)) * w (ecol j k) := by
  unfold k0_pay1
  simp only [shapeCast_self]
  rw [matmul_msg_apply]
  rfl

/-! ## The self-loop body at an index -/

/-- Row `j 0` of a node block, at column `k`. -/
abbrev nrow (j : S2000x128.Idx) (k : Fin 128) : S2000x128.Idx := fun a => match a with
  | ⟨0, _⟩ => ⟨(j 0).val, (j 0).isLt⟩
  | ⟨1, _⟩ => ⟨k.val, k.isLt⟩
/-- Row `k` of a weight matrix, at column `j 1`. -/
abbrev ncol (j : S2000x128.Idx) (k : Fin 128) : S128x128.Idx := fun a => match a with
  | ⟨0, _⟩ => ⟨k.val, k.isLt⟩
  | ⟨1, _⟩ => ⟨(j 1).val, (j 1).isLt⟩
/-- Row `j 0` of a one-column block. -/
abbrev ncell (j : S2000x128.Idx) : S2000x1.Idx := fun a => match a with
  | ⟨0, _⟩ => ⟨(j 0).val, (j 0).isLt⟩
  | ⟨1, _⟩ => ⟨0, Nat.one_pos⟩

theorem lhs_loop_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_loop_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_loop_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_loop_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A node block times a weight matrix into a zero accumulator, read at an index: the row's sum of products. -/
theorem matmul_loop_apply (l : FVec Ideal S2000x128 .bf16) (r : FVec Ideal S128x128 .bf16) (j : S2000x128.Idx) :
    matmul dot_S2000x128_S128x128_S2000x128_1_0_0_1_n_n none l r (constant S2000x128 .f32 0x00000000#32) j = ∑ k : Fin 128, l (nrow j k) * r (ncol j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = nrow j k := funext fun a => Fin.ext (by
    match a with
    | ⟨0, _⟩ => exact lhs_loop_0 _ _
    | ⟨1, _⟩ => exact (lhs_loop_1 _ _).trans hk)
  have er : dot_S2000x128_S128x128_S2000x128_1_0_0_1_n_n.rhsIdx j ((ValueIdx.contrEquiv1 dot_S2000x128_S128x128_S2000x128_1_0_0_1_n_n 128 rfl rfl).symm k) = ncol j k := funext fun a => Fin.ext (by
    match a with
    | ⟨0, _⟩ => exact (rhs_loop_0 _ _).trans hk
    | ⟨1, _⟩ => exact rhs_loop_1 _ _)
  rw [el, er]

/-- A one-column block broadcast along its rows, read at an index: the row's entry. -/
theorem bcast_col_apply {α : Type} (x : S2000x1.Idx → α) (j : S2000x128.Idx) :
    broadcastTo S2000x128 x broadcasts_S2000x1_S2000x128 j = x (ncell j) :=
  broadcastTo_apply x _ j (ncell j) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])

/-- The word of the float one denotes the extended real one. -/
theorem ofBits_one_f32 : Ideal.ofBits .f32 0x3F800000#32 = 1 := by
  simp [Ideal.ofBits, Ideal.ieee, -EReal.coe_mul]; norm_num

/-- The self-loop body's stored value at an index. -/
theorem loop_pay_apply (h : Vec Ideal S2000x128 .f32) (lw elw : Vec Ideal S128x128 .bf16) (b : Vec Ideal S2000x1 .f32)
    (agg : Vec Ideal S2000x128 .f32) (nrm : Vec Ideal S2000x1 .f32) (j : S2000x128.Idx) :
    k1_pay1 h lw elw b agg nrm j
      = max (agg j * nrm (ncell j)
          + (b (ncell j) * (∑ k : Fin 128, h (nrow j k) * lw (ncol j k))
            + (1 - b (ncell j)) * (∑ k : Fin 128, h (nrow j k) * elw (ncol j k)))) 0 := by
  unfold k1_pay1
  simp only [shapeCast_self]
  simp only [ValueIdx.maximumf_apply, ValueIdx.addf_apply, ValueIdx.mulf_apply, ValueIdx.subf_apply, ValueIdx.broadcast_apply,
    bcast_col_apply, matmul_loop_apply, ValueIdx.truncf_apply]
  rw [Ideal.ofBits_def, Ideal.ofBits_def, ofBits_one_f32, Ideal.ofBits_zero_f32]

end Cert.KernelIdeal.Pay

end
-- ==== Proof.MsgArray.lean ====
import proofs.«129216_j47777216201145_1_alg».proof.Proof.Gen.KernelIdeal.Frame
import proofs.«129216_j47777216201145_1_alg».proof.Proof.Payloads

/-!
The message array after the first pipeline: every index of the edge array `[600000, 128]` lies in exactly one of the 75
row blocks of 8000 rows; grid point `t` writes back block `t`, and what it writes at row `r`, column `q` of that block is
`∑ k, (a (8000 t + r) k + b (8000 t + r) k) · w k q` of the three arrays the pipeline finds at its entry. So the array ends
as ONE function of those arrays: row `i` of `a + b` times column `q` of `w`.
-/

set_option maxRecDepth 16384

noncomputable section

namespace Cert.KernelIdeal.MsgV

open Cert.KernelIdeal Cert.KernelIdeal.Gen Cert.KernelIdeal.Pay
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `i 0` of the edge array, at column `k`. -/
abbrev Erow (i : S600000x128.Idx) (k : Fin 128) : S600000x128.Idx := fun a => match a with
  | ⟨0, _⟩ => ⟨(i 0).val, (i 0).isLt⟩
  | ⟨1, _⟩ => ⟨k.val, k.isLt⟩
/-- Row `k` of the weight matrix, at column `i 1`. -/
abbrev Ecol (i : S600000x128.Idx) (k : Fin 128) : S128x128.Idx := fun a => match a with
  | ⟨0, _⟩ => ⟨k.val, k.isLt⟩
  | ⟨1, _⟩ => ⟨(i 1).val, (i 1).isLt⟩

/-- The message array as one function of the two gathered arrays and the weight matrix. -/
def msgOf (a b : S600000x128.Idx → EReal) (w : S128x128.Idx → EReal) : S600000x128.Idx → EReal :=
  fun i => ∑ k : Fin 128, (a (Erow i k) + b (Erow i k)) * w (Ecol i k)

/-- The block indices over the grid: the three edge windows move with the point along the rows, the weight stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the first gathered array's block at point `t` is the array's entry 8000·t rows further down. -/
theorem blkA_apply (c : Dev nD) (t : Fin cfg0.N) (y : S8000x128.Idx) (i : S600000x128.Idx)
    (h0 : (i 0).val = 8000 * t.val + (y 0).val) (h1 : (i 1).val = (y 1).val) :
    (iblk0 V c 0 t : Vec Ideal S8000x128 .f32) y = (V c main_v6 : S600000x128.Idx → EReal) i := by
  obtain ⟨e0, e1, -⟩ := idx_facts t
  unfold iblk0
  rw [View.read_apply]
  show (V c main_v6 : S600000x128.Idx → EReal) _ = _
  refine congrArg (V c main_v6 : S600000x128.Idx → EReal) (funext fun a => Fin.ext ?_)
  match a with
  | ⟨0, _⟩ => show win0_0.index t 0 * 8000 + 1 * (y 0).val = (i 0).val; rw [e0, h0]; omega
  | ⟨1, _⟩ => show win0_0.index t 1 * 128 + 1 * (y 1).val = (i 1).val; rw [e1, h1]; omega

/-- The same for the second gathered array. -/
theorem blkB_apply (c : Dev nD) (t : Fin cfg0.N) (y : S8000x128.Idx) (i : S600000x128.Idx)
    (h0 : (i 0).val = 8000 * t.val + (y 0).val) (h1 : (i 1).val = (y 1).val) :
    (iblk0 V c 1 t : Vec Ideal S8000x128 .f32) y = (V c main_v13 : S600000x128.Idx → EReal) i := by
  obtain ⟨-, -, e0, e1, -⟩ := idx_facts t
  unfold iblk0
  rw [View.read_apply]
  show (V c main_v13 : S600000x128.Idx → EReal) _ = _
  refine congrArg (V c main_v13 : S600000x128.Idx → EReal) (funext fun a => Fin.ext ?_)
  match a with
  | ⟨0, _⟩ => show win0_1.index t 0 * 8000 + 1 * (y 0).val = (i 0).val; rw [e0, h0]; omega
  | ⟨1, _⟩ => show win0_1.index t 1 * 128 + 1 * (y 1).val = (i 1).val; rw [e1, h1]; omega

/-- The weight matrix's one block is the matrix. -/
theorem blkW_apply (c : Dev nD) (t : Fin cfg0.N) (y : S128x128.Idx) :
    (iblk0 V c 2 t : Vec Ideal S128x128 .bf16) y = (V c main_v14 : S128x128.Idx → EReal) y := by
  obtain ⟨-, -, -, -, e0, e1, -⟩ := idx_facts t
  unfold iblk0
  rw [View.read_apply]
  show (V c main_v14 : S128x128.Idx → EReal) _ = _
  refine congrArg (V c main_v14 : S128x128.Idx → EReal) (funext fun a => Fin.ext ?_)
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- WHAT POINT `t` WRITES BACK is block `t` of the message array of the three arrays the pipeline finds. -/
theorem flushed_eq (c : Dev nD) (t : Fin cfg0.N) :
    (dat0 V c).flushed 3 t = ((cfg0.win 3).blk t).view.read (Elt Ideal) (msgOf (V c main_v6) (V c main_v13) (V c main_v14)) := by
  show (cfg0.win 3).cut (grid0.coords t) ((dat0 V c).after 3 t) = _
  rw [after0_3]
  unfold out0_3
  rw [View.canon_unit_zero hz]
  simp only [View.ld_unit_zero (S := S8000x128) hz, View.ld_unit_zero (S := S128x128) hz]
  obtain ⟨-, -, -, -, -, -, e0, e1⟩ := idx_facts t
  funext j
  refine (msg_pay_apply (iblk0 V c 0 t) (iblk0 V c 1 t) (iblk0 V c 2 t) j).trans ?_
  rw [View.read_apply]
  unfold msgOf
  refine Finset.sum_congr rfl fun k _ => ?_
  have r0 : ((((cfg0.win 3).blk t).view.emb j) 0).val = 8000 * t.val + (j 0).val := by
    show win0_3.index t 0 * 8000 + 1 * (j 0).val = _; rw [e0]; omega
  have r1 : ((((cfg0.win 3).blk t).view.emb j) 1).val = (j 1).val := by
    show win0_3.index t 1 * 128 + 1 * (j 1).val = _; rw [e1]; omega
  rw [blkA_apply V c t (erow j k) (Erow (((cfg0.win 3).blk t).view.emb j) k) r0 rfl,
    blkB_apply V c t (erow j k) (Erow (((cfg0.win 3).blk t).view.emb j) k) r0 rfl,
    blkW_apply V c t (ecol j k)]
  refine congrArg (_ * (V c main_v14 : S128x128.Idx → EReal) ·) (funext fun a => Fin.ext ?_)
  match a with
  | ⟨0, _⟩ => rfl
  | ⟨1, _⟩ => exact r1.symm

/-- An index of the edge array is in point `t`'s block iff each coordinate is in the block's range on its axis. -/
theorem mem_blk (t : Fin cfg0.N) (i : S600000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v15).slice (win0_3.rect t)).set ↔ _
  rw [View.set_slice_whole, Rect.mem_set_unit]
  exact Iff.rfl

/-- Every index of the edge array is in the block of the point its row falls in. -/
theorem cover (i : S600000x128.Idx) : ∃ t : Fin cfg0.N, (cfg0.win 3).flush t = true ∧ i ∈ ((cfg0.win 3).blk t).view.set := by
  have hi0 : (i 0).val < 600000 := (i 0).isLt
  have hi1 : (i 1).val < 128 := (i 1).isLt
  have hN : cfg0.N = 75 := N_0
  let t : Fin cfg0.N := ⟨(i 0).val / 8000, by rw [hN]; omega⟩
  obtain ⟨-, -, -, -, -, -, e0, e1⟩ := idx_facts t
  refine ⟨t, flush0_3 t, ?_⟩
  rw [mem_blk]
  intro a
  match a with
  | ⟨0, _⟩ =>
    show win0_3.index t 0 * 8000 ≤ (i 0).val ∧ (i 0).val < win0_3.index t 0 * 8000 + 8000
    rw [e0]; show (i 0).val / 8000 * 8000 ≤ (i 0).val ∧ (i 0).val < (i 0).val / 8000 * 8000 + 8000; omega
  | ⟨1, _⟩ =>
    show win0_3.index t 1 * 128 ≤ (i 1).val ∧ (i 1).val < win0_3.index t 1 * 128 + 128
    rw [e1]; omega

/-- THE MESSAGE ARRAY after the pipeline. -/
theorem final (c : Dev nD) :
    (dat0 V c).arrAt 3 cfg0.N = msgOf (V c main_v6) (V c main_v13) (V c main_v14) :=
  (dat0 V c).arrAt_eq_of_cover 3 (msgOf (V c main_v6) (V c main_v13) (V c main_v14)) (fun t _ => flushed_eq V c t) cover

end Cert.KernelIdeal.MsgV

end
-- ==== Proof.LoopArray.lean ====
import proofs.«129216_j47777216201145_1_alg».proof.Proof.Gen.KernelIdeal.Frame
import proofs.«129216_j47777216201145_1_alg».proof.Proof.Payloads

/-!
The node array after the second pipeline: every index of `[50000, 128]` lies in exactly one of the 25 row blocks of 2000
rows; grid point `t` writes back block `t`, and what it writes at row `r`, column `q` of that block is the self-loop body's
value of the six arrays the pipeline finds at its entry, read 2000·t rows further down. So the array ends as ONE function
of those arrays: `max (agg i q · nrm i + (b i · (h · lw) i q + (1 − b i) · (h · elw) i q)) 0`.
-/

set_option maxRecDepth 16384

noncomputable section

namespace Cert.KernelIdeal.LoopV

open Cert.KernelIdeal Cert.KernelIdeal.Gen Cert.KernelIdeal.Pay
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `i 0` of the node array, at column `k`. -/
abbrev Nrow (i : S50000x128.Idx) (k : Fin 128) : S50000x128.Idx := fun a => match a with
  | ⟨0, _⟩ => ⟨(i 0).val, (i 0).isLt⟩
  | ⟨1, _⟩ => ⟨k.val, k.isLt⟩
/-- Row `k` of a weight matrix, at column `i 1`. -/
abbrev Ncol (i : S50000x128.Idx) (k : Fin 128) : S128x128.Idx := fun a => match a with
  | ⟨0, _⟩ => ⟨k.val, k.isLt⟩
  | ⟨1, _⟩ => ⟨(i 1).val, (i 1).isLt⟩
/-- Row `i 0` of a one-column array. -/
abbrev Ncell (i : S50000x128.Idx) : S50000x1.Idx := fun a => match a with
  | ⟨0, _⟩ => ⟨(i 0).val, (i 0).isLt⟩
  | ⟨1, _⟩ => ⟨0, Nat.one_pos⟩

/-- The node array as one function of the six arrays the second pipeline reads. -/
def nodeOf (h agg : S50000x128.Idx → EReal) (nrm b : S50000x1.Idx → EReal) (lw elw : S128x128.Idx → EReal) : S50000x128.Idx → EReal :=
  fun i => max (agg i * nrm (Ncell i)
      + (b (Ncell i) * (∑ k : Fin 128, h (Nrow i k) * lw (Ncol i k))
        + (1 - b (Ncell i)) * (∑ k : Fin 128, h (Nrow i k) * elw (Ncol i k)))) 0

/-- The block indices over the grid: the row-blocked windows move with the point along the rows, the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- An entry of the node features' block at point `t` is the array's entry 2000·t rows further down. -/
theorem blkH_apply (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_arg0 : S50000x128.Idx → EReal) i := by
  have e0 := (idx_facts t).1
  have e1 := (idx_facts t).2.1
  unfold iblk1
  rw [View.read_apply]
  show (V c main_arg0 : S50000x128.Idx → EReal) _ = _
  refine congrArg (V c main_arg0 : S50000x128.Idx → EReal) (funext fun a => Fin.ext ?_)
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- The same for the aggregated messages. -/
theorem blkAgg_apply (c : Dev nD) (t : Fin cfg1.N) (y : S2000x128.Idx) (i : S50000x128.Idx)
    (h0 : (i 0).val = 2000 * t.val + (y 0).val) (h1 : (i 1).val = (y 1).val) :
    (iblk1 V c 1 t : Vec Ideal S2000x128 .f32) y = (V c main_v18 : S50000x128.Idx → EReal) i := by
  have e0 := (idx_facts t).2.2.1
  have e1 := (idx_facts t).2.2.2.1
  unfold iblk1
  rw [View.read_apply]
  show (V c main_v18 : S50000x128.Idx → EReal) _ = _
  refine congrArg (V c main_v18 : S50000x128.Idx → EReal) (funext fun a => Fin.ext ?_)
  match a with
  | ⟨0, _⟩ => show win1_1.index t 0 * 2000 + 1 * (y 0).val = (i 0).val; rw [e0, h0]; omega
  | ⟨1, _⟩ => show win1_1.index t 1 * 128 + 1 * (y 1).val = (i 1).val; rw [e1, h1]; omega

/-- The same for the one-column array of norms. -/
theorem blkNrm_apply (c : Dev nD) (t : Fin cfg1.N) (y : S2000x1.Idx) (i : S50000x1.Idx)
    (h0 : (i 0).val = 2000 * t.val + (y 0).val) (h1 : (i 1).val = (y 1).val) :
    (iblk1 V c 2 t : Vec Ideal S2000x1 .f32) y = (V c main_arg1 : S50000x1.Idx → EReal) i := by
  have e0 := (idx_facts t).2.2.2.2.1
  have e1 := (idx_facts t).2.2.2.2.2.1
  unfold iblk1
  rw [View.read_apply]
  show (V c main_arg1 : S50000x1.Idx → EReal) _ = _
  refine congrArg (V c main_arg1 : S50000x1.Idx → EReal) (funext fun a => Fin.ext ?_)
  match a with
  | ⟨0, _⟩ => show win1_2.index t 0 * 2000 + 1 * (y 0).val = (i 0).val; rw [e0, h0]; omega
  | ⟨1, _⟩ => show win1_2.index t 1 * 1 + 1 * (y 1).val = (i 1).val; rw [e1, h1]; omega

/-- The same for the one-column array of in-degree indicators. -/
theorem blkMask_apply (c : Dev nD) (t : Fin cfg1.N) (y : S2000x1.Idx) (i : S50000x1.Idx)
    (h0 : (i 0).val = 2000 * t.val + (y 0).val) (h1 : (i 1).val = (y 1).val) :
    (iblk1 V c 3 t : Vec Ideal S2000x1 .f32) y = (V c main_v26 : S50000x1.Idx → EReal) i := by
  have e0 := (idx_facts t).2.2.2.2.2.2.1
  have e1 := (idx_facts t).2.2.2.2.2.2.2.1
  unfold iblk1
  rw [View.read_apply]
  show (V c main_v26 : S50000x1.Idx → EReal) _ = _
  refine congrArg (V c main_v26 : S50000x1.Idx → EReal) (funext fun a => Fin.ext ?_)
  match a with
  | ⟨0, _⟩ => show win1_3.index t 0 * 2000 + 1 * (y 0).val = (i 0).val; rw [e0, h0]; omega
  | ⟨1, _⟩ => show win1_3.index t 1 * 1 + 1 * (y 1).val = (i 1).val; rw [e1, h1]; omega

/-- The first weight matrix's one block is the matrix. -/
theorem blkLw_apply (c : Dev nD) (t : Fin cfg1.N) (y i : S128x128.Idx)
    (h0 : (i 0).val = (y 0).val) (h1 : (i 1).val = (y 1).val) :
    (iblk1 V c 4 t : Vec Ideal S128x128 .bf16) y = (V c main_v27 : S128x128.Idx → EReal) i := by
  have e0 := (idx_facts t).2.2.2.2.2.2.2.2.1
  have e1 := (idx_facts t).2.2.2.2.2.2.2.2.2.1
  unfold iblk1
  rw [View.read_apply]
  show (V c main_v27 : S128x128.Idx → EReal) _ = _
  refine congrArg (V c main_v27 : S128x128.Idx → EReal) (funext fun a => Fin.ext ?_)
  match a with
  | ⟨0, _⟩ => show win1_4.index t 0 * 128 + 1 * (y 0).val = (i 0).val; rw [e0, h0]; omega
  | ⟨1, _⟩ => show win1_4.index t 1 * 128 + 1 * (y 1).val = (i 1).val; rw [e1, h1]; omega

/-- The second weight matrix's one block is the matrix. -/
theorem blkElw_apply (c : Dev nD) (t : Fin cfg1.N) (y i : S128x128.Idx)
    (h0 : (i 0).val = (y 0).val) (h1 : (i 1).val = (y 1).val) :
    (iblk1 V c 5 t : Vec Ideal S128x128 .bf16) y = (V c main_v28 : S128x128.Idx → EReal) i := by
  have e0 := (idx_facts t).2.2.2.2.2.2.2.2.2.2.1
  have e1 := (idx_facts t).2.2.2.2.2.2.2.2.2.2.2.1
  unfold iblk1
  rw [View.read_apply]
  show (V c main_v28 : S128x128.Idx → EReal) _ = _
  refine congrArg (V c main_v28 : S128x128.Idx → EReal) (funext fun a => Fin.ext ?_)
  match a with
  | ⟨0, _⟩ => show win1_5.index t 0 * 128 + 1 * (y 0).val = (i 0).val; rw [e0, h0]; omega
  | ⟨1, _⟩ => show win1_5.index t 1 * 128 + 1 * (y 1).val = (i 1).val; rw [e1, h1]; omega

/-- The self-loop body's value at an entry of blocks that sit `off` rows down their arrays (the weights whole) is the node
    function of the arrays at the entry `off` rows further down. -/
theorem body_eq_nodeOf (h : Vec Ideal S2000x128 .f32) (lw elw : Vec Ideal S128x128 .bf16) (b : Vec Ideal S2000x1 .f32)
    (agg : Vec Ideal S2000x128 .f32) (nrm : Vec Ideal S2000x1 .f32)
    (H AGG : S50000x128.Idx → EReal) (NRM B : S50000x1.Idx → EReal) (LW ELW : S128x128.Idx → EReal) (off : Nat)
    (hH : ∀ (y : S2000x128.Idx) (i : S50000x128.Idx), (i 0).val = off + (y 0).val → (i 1).val = (y 1).val → h y = H i)
    (hAGG : ∀ (y : S2000x128.Idx) (i : S50000x128.Idx), (i 0).val = off + (y 0).val → (i 1).val = (y 1).val → agg y = AGG i)
    (hNRM : ∀ (y : S2000x1.Idx) (i : S50000x1.Idx), (i 0).val = off + (y 0).val → (i 1).val = (y 1).val → nrm y = NRM i)
    (hB : ∀ (y : S2000x1.Idx) (i : S50000x1.Idx), (i 0).val = off + (y 0).val → (i 1).val = (y 1).val → b y = B i)
    (hLW : ∀ (y i : S128x128.Idx), (i 0).val = (y 0).val → (i 1).val = (y 1).val → lw y = LW i)
    (hELW : ∀ (y i : S128x128.Idx), (i 0).val = (y 0).val → (i 1).val = (y 1).val → elw y = ELW i)
    (j : S2000x128.Idx) (i : S50000x128.Idx) (r0 : (i 0).val = off + (j 0).val) (r1 : (i 1).val = (j 1).val) :
    k1_pay1 h lw elw b agg nrm j = nodeOf H AGG NRM B LW ELW i := by
  rw [loop_pay_apply]
  unfold nodeOf
  have hL : ∑ k : Fin 128, h (nrow j k) * lw (ncol j k) = ∑ k : Fin 128, H (Nrow i k) * LW (Ncol i k) :=
    Finset.sum_congr rfl fun k _ => by rw [hH (nrow j k) (Nrow i k) r0 rfl, hLW (ncol j k) (Ncol i k) rfl r1]
  have hE : ∑ k : Fin 128, h (nrow j k) * elw (ncol j k) = ∑ k : Fin 128, H (Nrow i k) * ELW (Ncol i k) :=
    Finset.sum_congr rfl fun k _ => by rw [hH (nrow j k) (Nrow i k) r0 rfl, hELW (ncol j k) (Ncol i k) rfl r1]
  rw [hL, hE, hAGG j i r0 r1, hNRM (ncell j) (Ncell i) r0 rfl, hB (ncell j) (Ncell i) r0 rfl]

/-- WHAT POINT `t` WRITES BACK is block `t` of the node array of the six arrays the pipeline finds. -/
theorem flushed_eq (c : Dev nD) (t : Fin cfg1.N) :
    (dat1 V c).flushed 6 t = ((cfg1.win 6).blk t).view.read (Elt Ideal)
      (nodeOf (V c main_arg0) (V c main_v18) (V c main_arg1) (V c main_v26) (V c main_v27) (V c main_v28)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S2000x1) hz]
  have e0 := (idx_facts t).2.2.2.2.2.2.2.2.2.2.2.2.1
  have e1 := (idx_facts t).2.2.2.2.2.2.2.2.2.2.2.2.2
  funext j
  rw [View.read_apply]
  have r0 : ((((cfg1.win 6).blk t).view.emb j) 0).val = 2000 * t.val + (j 0).val := by
    show win1_6.index t 0 * 2000 + 1 * (j 0).val = _; rw [e0]; omega
  have r1 : ((((cfg1.win 6).blk t).view.emb j) 1).val = (j 1).val := by
    show win1_6.index t 1 * 128 + 1 * (j 1).val = _; rw [e1]; omega
  exact body_eq_nodeOf (iblk1 V c 0 t) (iblk1 V c 4 t) (iblk1 V c 5 t) (iblk1 V c 3 t) (iblk1 V c 1 t) (iblk1 V c 2 t)
    (V c main_arg0) (V c main_v18) (V c main_arg1) (V c main_v26) (V c main_v27) (V c main_v28) (2000 * t.val)
    (blkH_apply V c t) (blkAgg_apply V c t) (blkNrm_apply V c t) (blkMask_apply V c t) (blkLw_apply V c t) (blkElw_apply V c t)
    j (((cfg1.win 6).blk t).view.emb j) r0 r1

/-- An index of the node array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v29).slice (win1_6.rect t)).set ↔ _
  rw [View.set_slice_whole, Rect.mem_set_unit]
  exact Iff.rfl

/-- Every index of the node array is in the block of the point its row falls in. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have e0 := (idx_facts t).2.2.2.2.2.2.2.2.2.2.2.2.1
  have e1 := (idx_facts t).2.2.2.2.2.2.2.2.2.2.2.2.2
  refine ⟨t, flush1_6 t, ?_⟩
  rw [mem_blk]
  intro a
  match a with
  | ⟨0, _⟩ =>
    show win1_6.index t 0 * 2000 ≤ (i 0).val ∧ (i 0).val < win1_6.index t 0 * 2000 + 2000
    rw [e0]; show (i 0).val / 2000 * 2000 ≤ (i 0).val ∧ (i 0).val < (i 0).val / 2000 * 2000 + 2000; omega
  | ⟨1, _⟩ =>
    show win1_6.index t 1 * 128 ≤ (i 1).val ∧ (i 1).val < win1_6.index t 1 * 128 + 128
    rw [e1]; omega

/-- THE NODE ARRAY after the pipeline. -/
theorem final (c : Dev nD) :
    (dat1 V c).arrAt 6 cfg1.N = nodeOf (V c main_arg0) (V c main_v18) (V c main_arg1) (V c main_v26) (V c main_v27) (V c main_v28) :=
  (dat1 V c).arrAt_eq_of_cover 6 _ (fun t _ => flushed_eq V c t) cover

end Cert.KernelIdeal.LoopV

end
-- ==== Proof.HostReads.lean ====
import proofs.«129216_j47777216201145_1_alg».proof.Proof.Gen.KernelIdeal.Frame
import Idealize.ShloMosaic.Lib.StableHlo.Run

/-!
The host stretches of the kernel's program, read back as terms of the argument arrays.

Before the first pipeline the host gathers the rows `h[src]` and `emb_rel[etype]` (a negative index wrapped once) and
changes the first weight's float format. Between the pipelines it scatter-adds the message array into the destination
rows, scatter-adds ones the same way (the in-degrees), compares those with zero, turns the bits into floats and lays
them out as a column, and changes the two other weights' format. No host operation and no pipeline writes an argument.
-/

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- An index vector with each negative entry wrapped once around `n`, as a column. -/
abbrev wrapIdx (n : BitVec 32) (x : (⟨S600000, .i32⟩ : BufTy).Contents (Elt F)) : (⟨S600000x1, .i32⟩ : BufTy).Contents (Elt F) :=
  broadcastInDim S600000x1 ![0] bcast_S600000_S600000x1_0 (select (cmpi .slt x (broadcastInDim S600000 ![] bcast_S_S600000 (constantI S_ 32 0#32))) (addi x (broadcastInDim S600000 ![] bcast_S_S600000 (constantI S_ 32 n))) x)

/-- The gathered source rows. -/
abbrev srcRows (x0 : (⟨S50000x128, .f32⟩ : BufTy).Contents (Elt F)) (x6 : (⟨S600000, .i32⟩ : BufTy).Contents (Elt F)) : (⟨S600000x128, .f32⟩ : BufTy).Contents (Elt F) :=
  Host.gather gather_S50000x128_S600000x1_S600000x128_1_0_n_n_0_1_1128 x0 (wrapIdx 50000#32 x6)
/-- The gathered relation rows. -/
abbrev relRows (x2 : (⟨S500x128, .f32⟩ : BufTy).Contents (Elt F)) (x8 : (⟨S600000, .i32⟩ : BufTy).Contents (Elt F)) : (⟨S600000x128, .f32⟩ : BufTy).Contents (Elt F) :=
  Host.gather gather_S500x128_S600000x1_S600000x128_1_0_n_n_0_1_1128 x2 (wrapIdx 500#32 x8)
/-- The destination indices as a column. -/
abbrev dstCol (x7 : (⟨S600000, .i32⟩ : BufTy).Contents (Elt F)) : (⟨S600000x1, .i32⟩ : BufTy).Contents (Elt F) :=
  broadcastInDim S600000x1 ![0] bcast_S600000_S600000x1_0 x7
/-- The messages summed into their destination rows. -/
abbrev aggOf (x7 : (⟨S600000, .i32⟩ : BufTy).Contents (Elt F)) (msg : (⟨S600000x128, .f32⟩ : BufTy).Contents (Elt F)) : (⟨S50000x128, .f32⟩ : BufTy).Contents (Elt F) :=
  Host.scatterAdd scatter_S50000x128_S600000x1_S600000x128_1_0_0_1 (broadcastInDim S50000x128 ![] bcast_S_S50000x128 (constant S_ .f32 0x00000000#32)) (dstCol x7) msg
/-- Whether a node has an incoming edge: its in-degree (ones summed into the destination rows) compared with zero. -/
abbrev hasIn (x7 : (⟨S600000, .i32⟩ : BufTy).Contents (Elt F)) : (⟨S50000, .i1⟩ : BufTy).Contents (Elt F) :=
  cmpf (F := F) .ogt (Host.scatterAdd scatter_S50000_S600000x1_S600000_n_0_0_1 (broadcastInDim S50000 ![] bcast_S_S50000 (constant S_ .f32 0x00000000#32)) (dstCol x7) (broadcastInDim S600000 ![] bcast_S_S600000 (constant S_ .f32 0x3F800000#32))) (broadcastInDim S50000 ![] bcast_S_S50000 (constant S_ .f32 0x00000000#32))
/-- The same as a column of floats, one or zero. -/
abbrev maskCol (x7 : (⟨S600000, .i32⟩ : BufTy).Contents (Elt F)) : (⟨S50000x1, .f32⟩ : BufTy).Contents (Elt F) :=
  broadcastInDim S50000x1 ![0] bcast_S50000_S50000x1_0 (uitofp (F := F) .f32 (hasIn x7))

/-- A weight matrix with its float format changed. -/
abbrev asBf16 (x : (⟨S128x128, .f32⟩ : BufTy).Contents (Elt F)) : (⟨S128x128, .bf16⟩ : BufTy).Contents (Elt F) :=
  truncf .bf16 x bitsLt_bf16_f32

/-! ## Before the first pipeline -/

theorem V1_v6 (c : Dev nD) :
    V1 m ρ c main_v6 = srcRows (m ((c : Thread nD τ).loc main_arg0)) (m ((c : Thread nD τ).loc main_arg6)) := by
  show StableHlo.after hostOps0 (W0 m ρ c) (Proc.devRef .tc main_v6) = _
  after_results <;> rfl
theorem V1_v13 (c : Dev nD) :
    V1 m ρ c main_v13 = relRows (m ((c : Thread nD τ).loc main_arg2)) (m ((c : Thread nD τ).loc main_arg8)) := by
  show StableHlo.after hostOps0 (W0 m ρ c) (Proc.devRef .tc main_v13) = _
  after_results <;> rfl
theorem V1_v14 (c : Dev nD) :
    V1 m ρ c main_v14 = asBf16 (m ((c : Thread nD τ).loc main_arg3)) := by
  show StableHlo.after hostOps0 (W0 m ρ c) (Proc.devRef .tc main_v14) = _
  after_results <;> rfl

/-! ## The arguments, as the second pipeline finds them -/

theorem W2_main_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl
theorem V3_main_arg0 (c : Dev nD) : V3 m ρ c main_arg0 = m ((c : Thread nD τ).loc main_arg0) := by
  refine Eq.trans ?_ (W2_main_arg0 m ρ c)
  show StableHlo.after hostOps1 (W2 m ρ c) (Proc.devRef .tc main_arg0) = _
  after_results <;> rfl

theorem W2_main_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl
theorem V3_main_arg1 (c : Dev nD) : V3 m ρ c main_arg1 = m ((c : Thread nD τ).loc main_arg1) := by
  refine Eq.trans ?_ (W2_main_arg1 m ρ c)
  show StableHlo.after hostOps1 (W2 m ρ c) (Proc.devRef .tc main_arg1) = _
  after_results <;> rfl

theorem W2_main_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl
theorem V3_main_arg4 (c : Dev nD) : V3 m ρ c main_arg4 = m ((c : Thread nD τ).loc main_arg4) := by
  refine Eq.trans ?_ (W2_main_arg4 m ρ c)
  show StableHlo.after hostOps1 (W2 m ρ c) (Proc.devRef .tc main_arg4) = _
  after_results <;> rfl

theorem W2_main_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl
theorem V3_main_arg5 (c : Dev nD) : V3 m ρ c main_arg5 = m ((c : Thread nD τ).loc main_arg5) := by
  refine Eq.trans ?_ (W2_main_arg5 m ρ c)
  show StableHlo.after hostOps1 (W2 m ρ c) (Proc.devRef .tc main_arg5) = _
  after_results <;> rfl

theorem W2_main_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl
theorem V3_main_arg7 (c : Dev nD) : V3 m ρ c main_arg7 = m ((c : Thread nD τ).loc main_arg7) := by
  refine Eq.trans ?_ (W2_main_arg7 m ρ c)
  show StableHlo.after hostOps1 (W2 m ρ c) (Proc.devRef .tc main_arg7) = _
  after_results <;> rfl

/-! ## Between the pipelines -/

theorem V3_v18 (c : Dev nD) :
    V3 m ρ c main_v18 = aggOf (m ((c : Thread nD τ).loc main_arg7)) ((dat0 (V1 m ρ) c).arrAt 3 cfg0.N) := by
  rw [← W2_main_arg7 m ρ c, ← W2_arr m ρ c 3]
  show StableHlo.after hostOps1 (W2 m ρ c) (Proc.devRef .tc main_v18) = _
  after_results <;> rfl
theorem V3_v26 (c : Dev nD) :
    V3 m ρ c main_v26 = maskCol (m ((c : Thread nD τ).loc main_arg7)) := by
  rw [← W2_main_arg7 m ρ c]
  show StableHlo.after hostOps1 (W2 m ρ c) (Proc.devRef .tc main_v26) = _
  after_results <;> rfl
theorem V3_v27 (c : Dev nD) :
    V3 m ρ c main_v27 = asBf16 (m ((c : Thread nD τ).loc main_arg4)) := by
  rw [← W2_main_arg4 m ρ c]
  show StableHlo.after hostOps1 (W2 m ρ c) (Proc.devRef .tc main_v27) = _
  after_results <;> rfl
theorem V3_v28 (c : Dev nD) :
    V3 m ρ c main_v28 = asBf16 (m ((c : Thread nD τ).loc main_arg5)) := by
  rw [← W2_main_arg5 m ρ c]
  show StableHlo.after hostOps1 (W2 m ρ c) (Proc.devRef .tc main_v28) = _
  after_results <;> rfl

end Cert.KernelIdeal.HostV

end
-- ==== Proof.KernelValue.lean ====
import proofs.«129216_j47777216201145_1_alg».proof.Proof.KRun
import proofs.«129216_j47777216201145_1_alg».proof.Proof.MsgArray
import proofs.«129216_j47777216201145_1_alg».proof.Proof.LoopArray
import proofs.«129216_j47777216201145_1_alg».proof.Proof.HostReads

/-!
The kernel program's result as one function of its argument arrays: the node array of the second pipeline, whose
entry arrays are the arguments, the host's scatter-add of the first pipeline's message array, and the host's in-degree
column; the message array in turn is a function of the host's two gathers and the first weight.
-/

set_option maxRecDepth 16384

noncomputable section

namespace Cert.KernelIdeal.ValueV

open Cert.KernelIdeal Cert.KernelIdeal.Gen Cert.KernelIdeal.HostV Cert.KernelIdeal.MsgV Cert.KernelIdeal.LoopV
open Idealize.ShloMosaic Idealize.ShloMosaic.TcCoe Idealize.SL.Sem

variable (m : (ℓ : Loc nD τ sig) → Buf (Elt Ideal) ℓ) (ρ : Dev nD → PrngReg)

/-- The result of the kernel's program, from the argument arrays. -/
abbrev result (c : Dev nD) : Buf (Elt Ideal) ((c : Thread nD τ).loc main_v29) :=
  nodeOf (m ((c : Thread nD τ).loc main_arg0))
    (aggOf (m ((c : Thread nD τ).loc main_arg7))
      (msgOf (srcRows (m ((c : Thread nD τ).loc main_arg0)) (m ((c : Thread nD τ).loc main_arg6)))
        (relRows (m ((c : Thread nD τ).loc main_arg2)) (m ((c : Thread nD τ).loc main_arg8)))
        (asBf16 (m ((c : Thread nD τ).loc main_arg3)))))
    (m ((c : Thread nD τ).loc main_arg1))
    (maskCol (m ((c : Thread nD τ).loc main_arg7)))
    (asBf16 (m ((c : Thread nD τ).loc main_arg4)))
    (asBf16 (m ((c : Thread nD τ).loc main_arg5)))

/-- What the last segment boundary holds in the result array. -/
theorem result_eq (c : Dev nD) : W4 m ρ c (Proc.devRef .tc main_v29) = result m c := by
  rw [show W4 m ρ c (Proc.devRef .tc main_v29) = (dat1 (V3 m ρ) c).arrAt 6 cfg1.N from W4_arr m ρ c 6]
  rw [LoopV.final (V3 m ρ) c, V3_main_arg0 m ρ c, V3_v18 m ρ c, V3_main_arg1 m ρ c, V3_v26 m ρ c, V3_v27 m ρ c, V3_v28 m ρ c,
    MsgV.final (V1 m ρ) c, V1_v6 m ρ c, V1_v13 m ρ c, V1_v14 m ρ c]

/-- The run of the kernel's program with its result named. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.RunV.run m ρ)

end Cert.KernelIdeal.ValueV

end
-- ==== Proof.Bridge.lean ====
import proofs.«129216_j47777216201145_1_alg».proof.Proof.RefRead
import proofs.«129216_j47777216201145_1_alg».proof.Proof.MsgArray
import proofs.«129216_j47777216201145_1_alg».proof.Proof.LoopArray
import proofs.«129216_j47777216201145_1_alg».proof.Proof.HostReads

/-!
The two programs compute one function of the nine argument arrays, on the extended reals.

Both gather the same rows, scatter-add into the same destination rows and compare the same in-degrees with zero; those
host operations are carried as they stand. What differs:
* the messages: the kernel's array is `∑ k, (a i k + b i k) · w k q` block by block, the reference's one matrix product of
  `a + b` with `w`: the same sum at every index;
* the self-loop term: the reference SELECTS `h · lw` or `h · elw` by the in-degree bit `β`; the kernel turns the bit into a
  float `b ∈ {0, 1}` and forms `b · (h · lw) + (1 − b) · (h · elw)`. With `b = 1` that is `1 · x + 0 · y = x`, with `b = 0` it
  is `0 · x + 1 · y = y`, for all extended reals `x`, `y` (a product with zero is zero also at the infinities), so no
  finiteness of the inputs is used.
-/

set_option maxRecDepth 16384

noncomputable section

namespace Cert.KernelIdeal.BridgeV

open Idealize.ShloMosaic Idealize.ShloMosaic.TcCoe Idealize.SL.Sem
open Cert.KernelIdeal Cert.KernelIdeal.Gen Cert.KernelIdeal.HostV Cert.KernelIdeal.MsgV Cert.KernelIdeal.LoopV

/-! ## The blend of two values by a bit turned into a float is the selection by the bit -/

theorem blend (β : BitVec 1) (x y : EReal) :
    (FloatOps.uitofp (F := Ideal) .f32 β : EReal) * x + (1 - (FloatOps.uitofp (F := Ideal) .f32 β : EReal)) * y = Scalar.select β x y := by
  by_cases h : β = 1#1
  · subst h
    rw [ValueIdx.select_one]
    show (((1 : ℕ) : ℝ) : EReal) * x + (1 - (((1 : ℕ) : ℝ) : EReal)) * y = x
    have h11 : (1 : EReal) - 1 = 0 := by rw [← EReal.coe_one, ← EReal.coe_sub, sub_self, EReal.coe_zero]
    rw [Nat.cast_one, EReal.coe_one, one_mul, h11, zero_mul, add_zero]
  · have h0 := ValueIdx.eq_zero_of_ne_one h
    subst h0
    rw [ValueIdx.select_zero]
    show (((0 : ℕ) : ℝ) : EReal) * x + (1 - (((0 : ℕ) : ℝ) : EReal)) * y = y
    rw [Nat.cast_zero, EReal.coe_zero, zero_mul, sub_zero, one_mul, zero_add]

/-! ## The shared host operations: the reference's stages are the kernel's terms -/

section Shared
variable {F : FTy → Type} [FloatOps F]

theorem ref_src (x0 : (⟨S50000x128, .f32⟩ : BufTy).Contents (Elt F)) (x6 : (⟨S600000, .i32⟩ : BufTy).Contents (Elt F)) :
    Cert.ReferenceIdeal.ReadP.val_main_v6 (F := F) x0 x6 = srcRows x0 x6 := rfl
theorem ref_rel (x2 : (⟨S500x128, .f32⟩ : BufTy).Contents (Elt F)) (x8 : (⟨S600000, .i32⟩ : BufTy).Contents (Elt F)) :
    Cert.ReferenceIdeal.ReadP.val_main_v13 (F := F) x2 x8 = relRows x2 x8 := rfl
theorem ref_agg (x0 : (⟨S50000x128, .f32⟩ : BufTy).Contents (Elt F)) (x2 : (⟨S500x128, .f32⟩ : BufTy).Contents (Elt F)) (x3 : (⟨S128x128, .f32⟩ : BufTy).Contents (Elt F)) (x6 x7 x8 : (⟨S600000, .i32⟩ : BufTy).Contents (Elt F)) :
    Cert.ReferenceIdeal.ReadP.val_main_v18 (F := F) x0 x2 x3 x6 x7 x8 = aggOf x7 (Cert.ReferenceIdeal.ReadP.val_main_v15 (F := F) x0 x2 x3 x6 x8) := rfl
theorem ref_hasIn (x7 : (⟨S600000, .i32⟩ : BufTy).Contents (Elt F)) :
    Cert.ReferenceIdeal.ReadP.val_main_v26 (F := F) x7 = hasIn x7 := rfl

end Shared

/-! ## The messages -/

/-- The reference's one matrix product of the summed rows is the kernel's message array. -/
theorem ref_msg (x0 : (⟨S50000x128, .f32⟩ : BufTy).Contents (Elt Ideal)) (x2 : (⟨S500x128, .f32⟩ : BufTy).Contents (Elt Ideal)) (x3 : (⟨S128x128, .f32⟩ : BufTy).Contents (Elt Ideal)) (x6 x8 : (⟨S600000, .i32⟩ : BufTy).Contents (Elt Ideal)) :
    Cert.ReferenceIdeal.ReadP.val_main_v15 (F := Ideal) x0 x2 x3 x6 x8 = msgOf (srcRows x0 x6) (relRows x2 x8) (asBf16 x3) := by
  funext e
  rw [Cert.ReferenceIdeal.ReadP.val_main_v15_apply]
  unfold msgOf
  exact Finset.sum_congr rfl fun k _ => rfl

/-! ## The node array -/

/-- The in-degree column read at a row. -/
theorem maskCol_apply (x7 : (⟨S600000, .i32⟩ : BufTy).Contents (Elt Ideal)) (i : S50000x128.Idx) :
    maskCol x7 (Ncell i) = (FloatOps.uitofp (F := Ideal) .f32 (hasIn x7 (Cert.ReferenceIdeal.ReadP.idx_main_v27 (Cert.ReferenceIdeal.ReadP.idx_main_call0_v0 i))) : EReal) := by
  unfold maskCol
  exact broadcastInDim_apply _ bcast_S50000_S50000x1_0 (uitofp (F := Ideal) .f32 (hasIn x7)) (Ncell i) (Cert.ReferenceIdeal.ReadP.idx_main_v27 (Cert.ReferenceIdeal.ReadP.idx_main_call0_v0 i)) (fun a => match a with
    | ⟨0, _⟩ => by show (i 0).val = if (50000 : Nat) = 1 then 0 else (Ncell i 0).val; rw [if_neg (by decide)])

/-- The reference's result is the kernel's node function of the shared host terms. -/
theorem ref_eq (x0 : (⟨S50000x128, .f32⟩ : BufTy).Contents (Elt Ideal)) (x1 : (⟨S50000x1, .f32⟩ : BufTy).Contents (Elt Ideal)) (x2 : (⟨S500x128, .f32⟩ : BufTy).Contents (Elt Ideal)) (x3 x4 x5 : (⟨S128x128, .f32⟩ : BufTy).Contents (Elt Ideal)) (x6 x7 x8 : (⟨S600000, .i32⟩ : BufTy).Contents (Elt Ideal)) :
    Cert.ReferenceIdeal.ReadP.val_main_v32 (F := Ideal) x0 x1 x2 x3 x4 x5 x6 x7 x8
      = nodeOf x0 (aggOf x7 (msgOf (srcRows x0 x6) (relRows x2 x8) (asBf16 x3))) x1 (maskCol x7)
          (asBf16 x4) (asBf16 x5) := by
  funext i
  rw [Cert.ReferenceIdeal.ReadP.val_main_v32_apply, Cert.ReferenceIdeal.ReadP.val_main_v31_apply, Cert.ReferenceIdeal.ReadP.val_main_v20_apply, Cert.ReferenceIdeal.ReadP.val_main_v30_apply,
    Cert.ReferenceIdeal.ReadP.val_main_call1_v0_apply, Cert.ReferenceIdeal.ReadP.val_main_call1_cst_apply, Cert.ReferenceIdeal.ReadP.val_main_v19_apply, Cert.ReferenceIdeal.ReadP.val_main_call0_v0_apply,
    Cert.ReferenceIdeal.ReadP.val_main_v27_apply, Cert.ReferenceIdeal.ReadP.val_main_v28_apply, Cert.ReferenceIdeal.ReadP.val_main_v29_apply, ref_agg, ref_msg, ref_hasIn]
  unfold nodeOf
  rw [maskCol_apply, blend]
  show max (_ * _ + _) (Ideal.ofBits .f32 0x00000000#32) = _
  rw [Ideal.ofBits_zero_f32]
  rfl

end Cert.KernelIdeal.BridgeV

end
-- ==== Proof.lean ====
/-
  The kernel's program and its reference compute one function of the nine argument arrays on the extended reals.

  Both gather the rows `h[src]` and `emb_rel[etype]`. The messages `(h[src] + emb_rel[etype]) · W` are, in the kernel, a
  pipeline over 75 blocks of 8000 edges whose body adds the two blocks and multiplies with the weight (the changes of
  float format around the product are the identity here), and in the reference one matrix product: the same sum at every
  index. Both scatter-add the messages into the destination rows and form the in-degrees by scatter-adding ones. The
  node update `max (agg · norm + loop) 0` is a second pipeline over 25 blocks of 2000 nodes; its self-loop term is
  `b · (h · lw) + (1 − b) · (h · elw)` with `b ∈ {0, 1}` the in-degree bit as a float, where the reference selects
  `h · lw` or `h · elw` by that bit: equal for all extended reals, since `1 · x + 0 · y = x` and `0 · x + 1 · y = y`.

  The frames of the two kernel programs are their generated frame certificates; the reference's frame is its run with the
  result dropped; the ideal pass changed nothing, so there is nothing to preserve.
-/
import proofs.«129216_j47777216201145_1_alg».proof.Defs
import proofs.«129216_j47777216201145_1_alg».proof.Proof.Gen.Kernel
import proofs.«129216_j47777216201145_1_alg».proof.Proof.Gen.Kernel.Frame
import proofs.«129216_j47777216201145_1_alg».proof.Proof.Gen.KernelIdeal
import proofs.«129216_j47777216201145_1_alg».proof.Proof.Gen.KernelIdeal.Frame
import proofs.«129216_j47777216201145_1_alg».proof.Proof.Gen.ReferenceIdeal
import proofs.«129216_j47777216201145_1_alg».proof.Proof.Gen.Pre_finite_inputs
import proofs.«129216_j47777216201145_1_alg».proof.Proof.RefRun
import proofs.«129216_j47777216201145_1_alg».proof.Proof.RefRead
import proofs.«129216_j47777216201145_1_alg».proof.Proof.KernelValue
import proofs.«129216_j47777216201145_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both programs, run from memories that agree on the arguments, end with the node function of the arguments in their
    result arrays. -/
theorem algebraic : Cert.algebraic_KernelIdeal_ReferenceIdeal := by
  intro m ρ m' ρ' _ hagree
  refine ⟨fun c => Cert.KernelIdeal.ValueV.result m c, Cert.KernelIdeal.ValueV.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8⟩ := hagree c
  rw [a0, a1, a2, a3, a4, a5, a6, a7, a8, Cert.ReferenceIdeal.ReadP.val_main_v32_eq]
  exact Cert.KernelIdeal.BridgeV.ref_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
